-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S256x64 : Shape := ⟨2, ![256, 64]⟩
abbrev S256 : Shape := ⟨1, ![256]⟩
abbrev S256x256 : Shape := ⟨2, ![256, 256]⟩
abbrev S8x256 : Shape := ⟨2, ![8, 256]⟩
abbrev S8 : Shape := ⟨1, ![8]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S256 .f32) (main_arg5 : FVec F S8x256 .f32) (main_arg6 : FVec F S8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x256 .f32 := Host.absf main_arg5
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S500000x64 .f32) (main_arg1 : FVec F S256x64 .f32) (main_arg2 : FVec F S256 .f32) (main_arg3 : FVec F S256x256 .f32) (main_arg4 : FVec F S256 .f32) (main_arg5 : FVec F S8x256 .f32) (main_arg6 : FVec F S8 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S500000x64 : Shape := ⟨2, ![500000, 64]⟩
abbrev S256x64 : Shape := ⟨2, ![256, 64]⟩
abbrev S256 : Shape := ⟨1, ![256]⟩
abbrev S256x256 : Shape := ⟨2, ![256, 256]⟩
abbrev S8x256 : Shape := ⟨2, ![8, 256]⟩
abbrev S8 : Shape := ⟨1, ![8]⟩
abbrev S64x256 : Shape := ⟨2, ![64, 256]⟩
abbrev S1x256 : Shape := ⟨2, ![1, 256]⟩
abbrev S8x1 : Shape := ⟨2, ![8, 1]⟩
abbrev S500000x8 : Shape := ⟨2, ![500000, 8]⟩
abbrev S8192x64 : Shape := ⟨2, ![8192, 64]⟩
abbrev S8192x8 : Shape := ⟨2, ![8192, 8]⟩
abbrev S8192x256 : Shape := ⟨2, ![8192, 256]⟩
abbrev S8x8192 : Shape := ⟨2, ![8, 8192]⟩
abbrev S8192 : Shape := ⟨1, ![8192]⟩
abbrev S1x8192 : Shape := ⟨2, ![1, 8192]⟩

abbrev nBuf : Space → Nat
  | .hbm => 16
  | .vmem => 10
  | .smem => 0
  | _ => 0

abbrev bufTy : (tb : Table) → Fin (tcTables nBuf tb) → BufTy
  | .hbm, ⟨0, _⟩ => ⟨S500000x64, .f32⟩
  | .hbm, ⟨1, _⟩ => ⟨S256x64, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x256, .f32⟩
  | .hbm, ⟨6, _⟩ => ⟨S8, .f32⟩
  | .hbm, ⟨7, _⟩ => ⟨S64x256, .f32⟩
  | .hbm, ⟨8, _⟩ => ⟨S64x256, .bf16⟩
  | .hbm, ⟨9, _⟩ => ⟨S256x256, .f32⟩
  | .hbm, ⟨10, _⟩ => ⟨S256x256, .bf16⟩
  | .hbm, ⟨11, _⟩ => ⟨S8x256, .bf16⟩
  | .hbm, ⟨12, _⟩ => ⟨S1x256, .f32⟩
  | .hbm, ⟨13, _⟩ => ⟨S1x256, .f32⟩
  | .hbm, ⟨14, _⟩ => ⟨S8x1, .f32⟩
  | .hbm, ⟨15, _⟩ => ⟨S500000x8, .f32⟩
  | .local _ .vmem, ⟨0, _⟩ => ⟨S8192x64, .f32⟩
  | .local _ .vmem, ⟨1, _⟩ => ⟨S8192x64, .f32⟩
  | .local _ .vmem, ⟨2, _⟩ => ⟨S64x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S8x256, .bf16⟩
  | .local _ .vmem, ⟨7, _⟩ => ⟨S8x1, .f32⟩
  | .local _ .vmem, ⟨8, _⟩ => ⟨S8192x8, .f32⟩
  | .local _ .vmem, ⟨9, _⟩ => ⟨S8192x8, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x64_S64x256_1_0 : S256x64.Transposes [1, 0] S64x256
  bitsLt_bf16_f32 : FTy.bits .bf16 < FTy.bits .f32
  transposes_S256x256_S256x256_1_0 : S256x256.Transposes [1, 0] S256x256
  shapeCasts_S256_S1x256 : S256.ShapeCasts S1x256
  shapeCasts_S8_S8x1 : S8.ShapeCasts S8x1
  inb_S8192x64_S8192x64_0_0 : ∀ a, (![0, 0] : Fin 2 → Nat) a + S8192x64.size a ≤ S8192x64.size a
  h_S8192x64 : 0 < S8192x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x8192 : S8x1.Broadcasts S8x8192
  reduces_S8x8192_S8192 : S8x8192.Reduces [0] S8192
  shapeCasts_S8192_S1x8192 : S8192.ShapeCasts S1x8192
  broadcasts_S1x8192_S8x8192 : S1x8192.Broadcasts S8x8192
  transposes_S8x8192_p1_0_S8192x8 : S8x8192.Transposes [1, 0] S8192x8
  inb_S8192x8_S8192x8_0_0 : ∀ a, (![0, 0] : Fin 2 → Nat) a + S8192x8.size a ≤ S8192x8.size a
  h_S8192x8 : 0 < S8192x8.numel
  dot_S8192x64_S64x256_S8192x256_1_0_0_1_n_n_wf : DotDims.WF S8192x64 S64x256 S8192x256 [1] [0] [0] [1] [] []
  dot_S8192x256_S256x256_S8192x256_1_0_0_1_n_n_wf : DotDims.WF S8192x256 S256x256 S8192x256 [1] [0] [0] [1] [] []
  dot_S8x256_S8192x256_S8x8192_1_1_0_0_n_n_wf : DotDims.WF S8x256 S8192x256 S8x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S500000x64.size a
  hwx0_0 : ∀ i : grid0.Coords, EltTy.bits .f32 = 32 ∨ (Rect.unit (s := S500000x64) (fun a => cc0_transform_0 i a * S8192x64.size a) (fun a => (Pipeline.Clip.of (cc0_transform_0 i a) (S8192x64.size a) (S500000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S500000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x256.size a
  hwx0_5 : ∀ i : grid0.Coords, EltTy.bits .bf16 = 32 ∨ (Rect.block (s := S8x256) S8x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S8192x8.size a < S500000x8.size a
  hwx0_7 : ∀ i : grid0.Coords, EltTy.bits .f32 = 32 ∨ (Rect.unit (s := S500000x8) (fun a => cc0_transform_7 i a * S8192x8.size a) (fun a => (Pipeline.Clip.of (cc0_transform_7 i a) (S8192x8.size a) (S500000x8.size a)).extent (S8192x8.size a)) fun a => Pipeline.Clip.inb (Pipeline.Clip.ok_of (hstart0_7 i a))).WholeWords (EltTy.packing .f32)
  hwxs0_7 : ∀ i : grid0.Coords, EltTy.bits .f32 = 32 ∨ (Rect.unit (s := S8192x8) (fun _ => 0) (fun a => (Pipeline.Clip.of (cc0_transform_7 i a) (S8192x8.size a) (S500000x8.size a)).extent (S8192x8.size a)) fun a => (Nat.zero_add _).trans_le (Pipeline.Clip.extent_le (Pipeline.Clip.ok_of (hstart0_7 i a)))).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8x256_S8192x256_S8x8192_1_1_0_0_n_n : DotDims S8x256 S8192x256 S8x8192 where
  lhsContracting := [1]
  rhsContracting := [1]
  lhsNonContracting := [0]
  rhsNonContracting := [0]
  lhsBatch := []
  rhsBatch := []
  wf := dot_S8x256_S8192x256_S8x8192_1_1_0_0_n_n_wf

abbrev win0_0 : Pipeline.Window sig grid0 :=
  Pipeline.Window.ofSpecClip (Memref.whole main_arg0) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v8) S8192x8.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x64 : Shape := ⟨2, ![500000, 64]⟩
abbrev S256x64 : Shape := ⟨2, ![256, 64]⟩
abbrev S256 : Shape := ⟨1, ![256]⟩
abbrev S256x256 : Shape := ⟨2, ![256, 256]⟩
abbrev S8x256 : Shape := ⟨2, ![8, 256]⟩
abbrev S8 : Shape := ⟨1, ![8]⟩
abbrev S64x256 : Shape := ⟨2, ![64, 256]⟩
abbrev S500000x256 : Shape := ⟨2, ![500000, 256]⟩
abbrev S1x256 : Shape := ⟨2, ![1, 256]⟩
abbrev S_ : Shape := ⟨0, ![]⟩
abbrev S256x8 : Shape := ⟨2, ![256, 8]⟩
abbrev S500000x8 : Shape := ⟨2, ![500000, 8]⟩
abbrev S1x8 : Shape := ⟨2, ![1, 8]⟩
abbrev S500000 : Shape := ⟨1, ![500000]⟩
abbrev S500000x1 : Shape := ⟨2, ![500000, 1]⟩

abbrev nBuf : Space → Nat
  | .hbm => 39
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S256x64, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x256, .f32⟩
  | .hbm, ⟨6, _⟩ => ⟨S8, .f32⟩
  | .hbm, ⟨7, _⟩ => ⟨S64x256, .f32⟩
  | .hbm, ⟨8, _⟩ => ⟨S500000x256, .f32⟩
  | .hbm, ⟨9, _⟩ => ⟨S1x256, .f32⟩
  | .hbm, ⟨10, _⟩ => ⟨S500000x256, .f32⟩
  | .hbm, ⟨11, _⟩ => ⟨S500000x256, .f32⟩
  | .hbm, ⟨12, _⟩ => ⟨S_, .f32⟩
  | .hbm, ⟨13, _⟩ => ⟨S500000x256, .f32⟩
  | .hbm, ⟨14, _⟩ => ⟨S500000x256, .f32⟩
  | .hbm, ⟨15, _⟩ => ⟨S256x256, .f32⟩
  | .hbm, ⟨16, _⟩ => ⟨S500000x256, .f32⟩
  | .hbm, ⟨17, _⟩ => ⟨S1x256, .f32⟩
  | .hbm, ⟨18, _⟩ => ⟨S500000x256, .f32⟩
  | .hbm, ⟨19, _⟩ => ⟨S500000x256, .f32⟩
  | .hbm, ⟨20, _⟩ => ⟨S_, .f32⟩
  | .hbm, ⟨21, _⟩ => ⟨S500000x256, .f32⟩
  | .hbm, ⟨22, _⟩ => ⟨S500000x256, .f32⟩
  | .hbm, ⟨23, _⟩ => ⟨S256x8, .f32⟩
  | .hbm, ⟨24, _⟩ => ⟨S500000x8, .f32⟩
  | .hbm, ⟨25, _⟩ => ⟨S1x8, .f32⟩
  | .hbm, ⟨26, _⟩ => ⟨S500000x8, .f32⟩
  | .hbm, ⟨27, _⟩ => ⟨S500000x8, .f32⟩
  | .hbm, ⟨28, _⟩ => ⟨S_, .f32⟩
  | .hbm, ⟨29, _⟩ => ⟨S500000x8, .f32⟩
  | .hbm, ⟨30, _⟩ => ⟨S500000x8, .f32⟩
  | .hbm, ⟨31, _⟩ => ⟨S_, .f32⟩
  | .hbm, ⟨32, _⟩ => ⟨S500000, .f32⟩
  | .hbm, ⟨33, _⟩ => ⟨S500000x1, .f32⟩
  | .hbm, ⟨34, _⟩ => ⟨S_, .f32⟩
  | .hbm, ⟨35, _⟩ => ⟨S500000x1, .f32⟩
  | .hbm, ⟨36, _⟩ => ⟨S500000x1, .f32⟩
  | .hbm, ⟨37, _⟩ => ⟨S500000x8, .f32⟩
  | .hbm, ⟨38, _⟩ => ⟨S500000x8, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call2_cst : Ref sig .tc := ⟨.hbm, 28, rfl⟩
abbrev main_call2_v0 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  transposes_S256x64_S64x256_1_0 : S256x64.Transposes [1, 0] S64x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S256x256_S256x256_1_0 : S256x256.Transposes [1, 0] S256x256
  transposes_S8x256_S256x8_1_0 : S8x256.Transposes [1, 0] S256x8
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S_S500000x8 : S_.BroadcastsInDim S500000x8 (![] : Fin 0 → Fin S500000x8.rank)
  reducesTo_S500000x8_S500000_d1 : S500000x8.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x8_0_1 : S500000x1.BroadcastsInDim S500000x8 (![0, 1] : Fin 2 → Fin S500000x8.rank)
  dot_S500000x64_S64x256_S500000x256_1_0_0_1_n_n_wf : DotDims.WF S500000x64 S64x256 S500000x256 [1] [0] [0] [1] [] []
  dot_S500000x256_S256x256_S500000x256_1_0_0_1_n_n_wf : DotDims.WF S500000x256 S256x256 S500000x256 [1] [0] [0] [1] [] []
  dot_S500000x256_S256x8_S500000x8_1_0_0_1_n_n_wf : DotDims.WF S500000x256 S256x8 S500000x8 [1] [0] [0] [1] [] []

variable [Facts₀]

def dot_S500000x64_S64x256_S500000x256_1_0_0_1_n_n : DotDims S500000x64 S64x256 S500000x256 where
  lhsContracting := [1]
  rhsContracting := [0]
  lhsNonContracting := [0]
  rhsNonContracting := [1]
  lhsBatch := []
  rhsBatch := []
  wf := dot_S500000x64_S64x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x8_S500000x8_1_0_0_1_n_n : DotDims S500000x256 S256x8 S500000x8 where
  lhsContracting := [1]
  rhsContracting := [0]
  lhsNonContracting := [0]
  rhsNonContracting := [1]
  lhsBatch := []
  rhsBatch := []
  wf := dot_S500000x256_S256x8_S500000x8_1_0_0_1_n_n_wf

class Facts : Prop extends Facts₀ where

variable [Facts]
-- ==== Proof.BodyK.lean ====
import proofs.«417296_j56934086476542_3_alg».proof.Proof.Gen.Kernel.Frame
import proofs.«417296_j56934086476542_3_alg».proof.Proof.Gen.Kernel.Skeleton
import Idealize.ShloMosaic.Lib.Pipeline.FrameBody
import Idealize.ShloMosaic.Lib.Tactic

/-!
# One grid point of the kernel, as a triple

At a grid point the kernel body reads its seven operands' staging buffers whole (a block of `x`, the two transposed
weight matrices, the third weight matrix and the three biases), computes the three layers and the rescaling on that
block, and overwrites the result's staging buffer whole with the outcome; it also reads that buffer once before the
store and drops what it read. So, whatever the eight buffers hold, the body runs to its end without a fault, the
seven operand buffers end as they were, and the result's buffer ends holding the body's arithmetic `k0_pay1 ∘ k0_pay2`
of what the seven held. The statement is for any float instance: nothing of the arithmetic is opened here.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev rX : Rect S8192x64 := Rect.unit (s := S8192x64) ![0, 0] S8192x64.size inb_S8192x64_S8192x64_0_0
abbrev rW1 : Rect S64x256 := Rect.unit (s := S64x256) ![0, 0] S64x256.size inb_S64x256_S64x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rW3 : Rect S8x256 := Rect.unit (s := S8x256) ![0, 0] S8x256.size inb_S8x256_S8x256_0_0
abbrev rB3 : Rect S8x1 := Rect.unit (s := S8x1) ![0, 0] S8x1.size inb_S8x1_S8x1_0_0
abbrev rO : Rect S8192x8 := Rect.unit (s := S8192x8) ![0, 0] S8192x8.size inb_S8192x8_S8192x8_0_0

/-- The body's arithmetic on whole blocks: the three layers and the rescaling (`k0_pay2`), then the transposition
    to rows-by-outputs (`k0_pay1`). -/
def pay (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) : Vec F S8192x8 .f32 :=
  k0_pay1 (k0_pay2 x0 x1 x2 x3 x4 x5 x6)

/-- What the result's staging buffer holds after the body, as the one store's piece over what the loads read. -/
def outBlk (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) : Vec F S8192x8 .f32 :=
  View.canon [⟨rO, pay (View.ld x0 rX) (View.ld x1 rW1) (View.ld x2 rB) (View.ld x3 rW2) (View.ld x4 rB) (View.ld x5 rW3) (View.ld x6 rB3)⟩]

/-- The one store covers the buffer. -/
theorem coverO (p0 : Vec F S8192x8 .f32) (y : S8192x8.Idx) :
    ∃ pc ∈ ([⟨rO, p0⟩] : List (View.Piece (Elt F) S8192x8 .f32)), y ∈ pc.1.set :=
  View.cover_of_tiled [⟨rO, p0⟩] S8192x8.size (by rfl) y

set_option maxHeartbeats 2000000 in
/-- The body on whole staging memrefs, the seven operands' at contents `x0 … x6` and the result's at anything: it
    runs to the continuation holding the seven as they were and the result's at `outBlk x0 … x6`. -/
theorem sound_kernel (c : Dev nD) (E : Set ℕ) (i : grid0.Coords)
    (arg1 : Memref sig .tc .vmem S8192x64 .f32) (harg1 : arg1.IsWhole) (arg2 : Memref sig .tc .vmem S64x256 .bf16) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S8x256 .bf16) (harg6 : arg6.IsWhole)
    (arg7 : Memref sig .tc .vmem S8x1 .f32) (harg7 : arg7.IsWhole) (arg8 : Memref sig .tc .vmem S8192x8 .f32) (harg8 : arg8.IsWhole)
    (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.Kernel.Body

end
-- ==== Proof.FrameK.lean ====
import proofs.«417296_j56934086476542_3_alg».proof.Proof.BodyK
import Idealize.ShloMosaic.Lib.Pipeline.FrameBody
import Idealize.ShloMosaic.Lib.Ring
import Idealize.ShloMosaic.Lib.Tactic

/-!
# The kernel runs, and leaves its arguments alone — at any float instance

For the frame nothing has to be said of what the body computes: it is enough that at every grid point the body
runs to its end on whatever the staging buffers hold, leaves the seven operand buffers as it found them, and leaves
SOMETHING in the result's buffer. So the proof data forget the result's window: its contents after the body are
not named, and the body obligation hands that buffer back at arbitrary contents. The `x` window's last block
overhangs the array; its staging buffer then holds the block on the rows inside the array and unnamed values past
them, and the body, which only reads it, hands it back unchanged. The library's frame run over such relational
proof data gives termination, no fault, and every argument array at its launch contents.
-/

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body the frame does not name: the result's, and no other. -/
abbrev fgt : Fin cfg0.W → Bool := fun
  | 0 => false | 1 => false | 2 => false | 3 => false | 4 => false | 5 => false | 6 => false | 7 => true
  | ⟨_ + 8, h⟩ => absurd h (Nat.not_lt.2 (Nat.le_add_left _ _))

/-- The `x` block of point `t` filled out to the staging buffer's 8192 rows with the zero word past the array's end. -/
def xfull (c : Dev nD) (t : Fin cfg0.N) : Vec F S8192x64 .f32 :=
  (cfg0.win 0).fill (cfg0.grid.coords t) (fun _ => Scalar.ofBits (F := F) .f32 0#32) (iblk m c 0 t)

/-- The proof data: the arrays as the region finds them; after the body the `x` buffer at its block, the six operand
    buffers at their blocks; the result's window is forgotten, and what is written here for it is read by nothing. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Scalar.ofBits (F := F) .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- The `x` buffer, fetched at every point: the block on the rows inside the array, anything (`d`) past them. -/
theorem before0_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, the result's window forgotten -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

set_option maxHeartbeats 1000000 in
/-- The body at any point: the seven operand buffers hold their blocks (the `x` buffer anything past the array's end),
    so the body's triple applies; the seven are handed back as they were and the result's buffer at what it holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0]
  iapply (sound_kernel (F := F) c Set.univ _ _ _ _ _ _ _ _ _ _ _ _ _ _ _ _ _
    ((cfg0.win 0).fill (cfg0.grid.coords t) d0 (iblk m c 0 t)) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    have hx : (cfg0.win 0).cut (cfg0.grid.coords t) (xfull m c t) = iblk m c 0 t := (cfg0.win 0).cut_fill _ _ _
    rw [hx]; iexact H0
  isplitl [H1]; · iexact H1
  isplitl [H2]; · iexact H2
  isplitl [H3]; · iexact H3
  isplitl [H4]; · iexact H4
  isplitl [H5]; · iexact H5
  isplitl [H6]; · iexact H6
  iexists _; iexact H7

/-- The library's body obligation at every point, the result's window forgotten. -/
theorem body_obligation (c : Dev nD) :
    BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of `@main` terminates without a fault; every input array of the pipeline and every
    other buffer ends as the region found it (of the result array only that it was overwritten block by block). -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame, at any float instance: the seven arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel.FrameRun

end
-- ==== Proof.BodyKI.lean ====
import proofs.«417296_j56934086476542_3_alg».proof.Proof.Gen.KernelIdeal.Frame
import proofs.«417296_j56934086476542_3_alg».proof.Proof.Gen.KernelIdeal.Skeleton
import Idealize.ShloMosaic.Lib.Pipeline.FrameBody
import Idealize.ShloMosaic.Lib.Tactic

/-!
# One grid point of the kernel, as a triple

At a grid point the kernel body reads its seven operands' staging buffers whole (a block of `x`, the two transposed
weight matrices, the third weight matrix and the three biases), computes the three layers and the rescaling on that
block, and overwrites the result's staging buffer whole with the outcome; it also reads that buffer once before the
store and drops what it read. So, whatever the eight buffers hold, the body runs to its end without a fault, the
seven operand buffers end as they were, and the result's buffer ends holding the body's arithmetic `k0_pay1 ∘ k0_pay2`
of what the seven held. The statement is for any float instance: nothing of the arithmetic is opened here.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev rX : Rect S8192x64 := Rect.unit (s := S8192x64) ![0, 0] S8192x64.size inb_S8192x64_S8192x64_0_0
abbrev rW1 : Rect S64x256 := Rect.unit (s := S64x256) ![0, 0] S64x256.size inb_S64x256_S64x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rW3 : Rect S8x256 := Rect.unit (s := S8x256) ![0, 0] S8x256.size inb_S8x256_S8x256_0_0
abbrev rB3 : Rect S8x1 := Rect.unit (s := S8x1) ![0, 0] S8x1.size inb_S8x1_S8x1_0_0
abbrev rO : Rect S8192x8 := Rect.unit (s := S8192x8) ![0, 0] S8192x8.size inb_S8192x8_S8192x8_0_0

/-- The body's arithmetic on whole blocks: the three layers and the rescaling (`k0_pay2`), then the transposition
    to rows-by-outputs (`k0_pay1`). -/
def pay (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) : Vec F S8192x8 .f32 :=
  k0_pay1 (k0_pay2 x0 x1 x2 x3 x4 x5 x6)

/-- What the result's staging buffer holds after the body, as the one store's piece over what the loads read. -/
def outBlk (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) : Vec F S8192x8 .f32 :=
  View.canon [⟨rO, pay (View.ld x0 rX) (View.ld x1 rW1) (View.ld x2 rB) (View.ld x3 rW2) (View.ld x4 rB) (View.ld x5 rW3) (View.ld x6 rB3)⟩]

/-- The one store covers the buffer. -/
theorem coverO (p0 : Vec F S8192x8 .f32) (y : S8192x8.Idx) :
    ∃ pc ∈ ([⟨rO, p0⟩] : List (View.Piece (Elt F) S8192x8 .f32)), y ∈ pc.1.set :=
  View.cover_of_tiled [⟨rO, p0⟩] S8192x8.size (by rfl) y

set_option maxHeartbeats 2000000 in
/-- The body on whole staging memrefs, the seven operands' at contents `x0 … x6` and the result's at anything: it
    runs to the continuation holding the seven as they were and the result's at `outBlk x0 … x6`. -/
theorem sound_kernel (c : Dev nD) (E : Set ℕ) (i : grid0.Coords)
    (arg1 : Memref sig .tc .vmem S8192x64 .f32) (harg1 : arg1.IsWhole) (arg2 : Memref sig .tc .vmem S64x256 .bf16) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S8x256 .bf16) (harg6 : arg6.IsWhole)
    (arg7 : Memref sig .tc .vmem S8x1 .f32) (harg7 : arg7.IsWhole) (arg8 : Memref sig .tc .vmem S8192x8 .f32) (harg8 : arg8.IsWhole)
    (x0 : Vec F S8192x64 .f32) (x1 : Vec F S64x256 .bf16) (x2 : Vec F S1x256 .f32) (x3 : Vec F S256x256 .bf16)
    (x4 : Vec F S1x256 .f32) (x5 : Vec F S8x256 .bf16) (x6 : Vec F S8x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.KernelIdeal.Body

end
-- ==== Proof.Spec.lean ====
import Idealize.ShloMosaic.PureOps.Ideal
import Idealize.ShloMosaic.Lib.ValueIdx

/-!
# The network as one function of its arguments, on the extended reals

A batch of rows `x r` (64 features each) goes through three dense layers, each followed by the clamp at zero,
`h ↦ max (W h + b) 0`, of widths 256, 256 and 8; the eight outputs of a row are then rescaled so that they sum to
one hundred, `y o * (100 / ∑ o', y o')`. Every row is treated alone: row `r` of the result depends on row `r` of
`x` and on the weights, and on no other row. On the extended reals `+`, `*` and `max` are total, and the
quotient is the library's total `Ideal.div`, so nothing here needs the entries to be finite.

The two constants are kept as the 32-bit words both programs print (the zero word and the word of `100.0`); the
same word denotes the same extended real on both sides and is never evaluated.
-/

noncomputable section

open scoped BigOperators

namespace Cert.Mlp

open Idealize.ShloMosaic Idealize.ShloMosaic.ValueIdx

/-- The clamp's lower bound: the zero word both programs print. -/
abbrev zeroW : EReal := Ideal.ofBits .f32 0x00000000#32

/-- The row total every row is rescaled to: the word of `100.0` both programs print. -/
abbrev hundredW : EReal := Ideal.ofBits .f32 0x42C80000#32

/-- One dense layer on one row, clamped at zero: output `j` is `max (∑ k, h k * W j k + b j) 0`. The weight
    matrix is indexed (output, input), as the arguments `W1`, `W2`, `W3` are stored. -/
def layer {K n : ℕ} (h : Fin K → EReal) (W : Fin n → Fin K → EReal) (b : Fin n → EReal) (j : Fin n) : EReal :=
  max (∑ k : Fin K, h k * W j k + b j) zeroW

/-- A row rescaled to sum to one hundred: entry `o` times the quotient of `100` by the row's sum. -/
def rescale {n : ℕ} (y : Fin n → EReal) (o : Fin n) : EReal :=
  y o * Ideal.div hundredW (∑ o' : Fin n, y o')

/-- One row of the result from one row of the input and the three layers' weights and biases. -/
def rowOut (x : Fin 64 → EReal) (W1 : Fin 256 → Fin 64 → EReal) (b1 : Fin 256 → EReal)
    (W2 : Fin 256 → Fin 256 → EReal) (b2 : Fin 256 → EReal) (W3 : Fin 8 → Fin 256 → EReal) (b3 : Fin 8 → EReal) :
    Fin 8 → EReal :=
  rescale (layer (layer (layer x W1 b1) W2 b2) W3 b3)

/-- Entry `(r, o)` of the result, from the argument arrays. -/
def entry (x : (⟨2, ![500000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![8, 256]⟩ : Shape).Idx → EReal)
    (b3 : (⟨1, ![8]⟩ : Shape).Idx → EReal) (r : Fin 500000) (o : Fin 8) : EReal :=
  rowOut (fun k => x (ix2 r k)) (fun j k => W1 (ix2 j k)) (fun j => b1 (ix1 j)) (fun j k => W2 (ix2 j k))
    (fun j => b2 (ix1 j)) (fun j k => W3 (ix2 j k)) (fun j => b3 (ix1 j)) o

/-- The whole result array `f32[500000, 8]` as ONE function of the seven argument arrays, index by index. -/
def G (x : (⟨2, ![500000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![8, 256]⟩ : Shape).Idx → EReal)
    (b3 : (⟨1, ![8]⟩ : Shape).Idx → EReal) : (⟨2, ![500000, 8]⟩ : Shape).Idx → EReal :=
  fun i => entry x W1 b1 W2 b2 W3 b3 (i 0) (i 1)

theorem G_ix2 (x : (⟨2, ![500000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![8, 256]⟩ : Shape).Idx → EReal)
    (b3 : (⟨1, ![8]⟩ : Shape).Idx → EReal) (r : Fin 500000) (o : Fin 8) :
    G x W1 b1 W2 b2 W3 b3 (ix2 r o) = entry x W1 b1 W2 b2 W3 b3 r o := rfl

end Cert.Mlp

end
-- ==== Proof.PayloadKI.lean ====
import proofs.«417296_j56934086476542_3_alg».proof.Proof.Gen.KernelIdeal.Skeleton
import proofs.«417296_j56934086476542_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The body's arithmetic at one entry

On the extended reals the kernel body's value at row `r`, output `o` of its block is the network's row function
of row `r` of the `x` block: a matrix product into a zero accumulator is the plain sum of products over the
contracted index, a change of float format is the identity, the bias rows and column are read where the broadcasts
put them, the lane sum over the eight outputs is the finite sum, and the final transposition swaps the two
coordinates. The third product is taken with the weights on the left, `∑ k, W3 o k * h k`; commuting each product
gives the row function's `∑ k, h k * W3 o k`. Only row `r` of the `x` block enters.
-/

noncomputable section

open scoped BigOperators

namespace Cert.KernelIdeal.Payload

open Cert.KernelIdeal Cert.KernelIdeal.Gen
open Idealize.ShloMosaic Idealize.ShloMosaic.ValueIdx

/-! ### The first product: rows of the block (64 features) against the first weights -/

/-- The left operand's row is the result's row. -/
theorem lhsA_0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide), dif_pos (show (0 : Fin S8192x64.rank) ∈ dot_S8192x64_S64x256_S8192x256_1_0_0_1_n_n.lhsNonContracting by decide)]
  rfl
/-- The left operand's column is the contracted index. -/
theorem lhsA_1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
/-- The right operand's row is the contracted index. -/
theorem rhsA_0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
/-- The right operand's column is the result's column. -/
theorem rhsA_1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide), dif_pos (show (1 : Fin S64x256.rank) ∈ dot_S8192x64_S64x256_S8192x256_1_0_0_1_n_n.rhsNonContracting by decide)]
  rfl

/-- The product into the zero accumulator at `(r, j)`: `∑ k, a (r, k) * w (k, j)`. -/
theorem mmA_apply (a : FVec Ideal S8192x64 .bf16) (w : FVec Ideal S64x256 .bf16) (r : Fin 8192) (j : Fin 256) :
    matmul dot_S8192x64_S64x256_S8192x256_1_0_0_1_n_n none a w (constant (F := Ideal) S8192x256 .f32 0x00000000#32) (ix2 r j)
      = ∑ k : Fin 64, a (ix2 r k) * w (ix2 k j) := by
  simp only [matmul]
  rw [Ideal.matmul_constant_zero_apply, ← Equiv.sum_comp (ValueIdx.contrEquiv1 dot_S8192x64_S64x256_S8192x256_1_0_0_1_n_n 64 rfl rfl).symm]
  refine Finset.sum_congr rfl fun k _ => ?_
  have hk := ValueIdx.contrEquiv1_symm_val dot_S8192x64_S64x256_S8192x256_1_0_0_1_n_n 64 rfl rfl k
  have el : dot_S8192x64_S64x256_S8192x256_1_0_0_1_n_n.lhsIdx (ix2 r j) ((ValueIdx.contrEquiv1 dot_S8192x64_S64x256_S8192x256_1_0_0_1_n_n 64 rfl rfl).symm k) = ix2 r k := funext fun b => Fin.ext (by
    match b with
    | ⟨0, _⟩ => exact lhsA_0 _ _
    | ⟨1, _⟩ => exact (lhsA_1 _ _).trans hk)
  have er : dot_S8192x64_S64x256_S8192x256_1_0_0_1_n_n.rhsIdx (ix2 r j) ((ValueIdx.contrEquiv1 dot_S8192x64_S64x256_S8192x256_1_0_0_1_n_n 64 rfl rfl).symm k) = ix2 k j := funext fun b => Fin.ext (by
    match b with
    | ⟨0, _⟩ => exact (rhsA_0 _ _).trans hk
    | ⟨1, _⟩ => exact rhsA_1 _ _)
  rw [el, er]

/-! ### The second product: the first hidden layer against the second weights -/

/-- The left operand's row is the result's row. -/
theorem lhsB_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's column is the contracted index. -/
theorem lhsB_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's row is the contracted index. -/
theorem rhsB_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's column is the result's column. -/
theorem rhsB_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The product into the zero accumulator at `(r, j)`: `∑ k, a (r, k) * w (k, j)`. -/
theorem mmB_apply (a : FVec Ideal S8192x256 .bf16) (w : FVec Ideal S256x256 .bf16) (r : Fin 8192) (j : Fin 256) :
    matmul dot_S8192x256_S256x256_S8192x256_1_0_0_1_n_n none a w (constant (F := Ideal) S8192x256 .f32 0x00000000#32) (ix2 r j)
      = ∑ k : Fin 256, a (ix2 r k) * w (ix2 k j) := by
  simp only [matmul]
  rw [Ideal.matmul_constant_zero_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 r j) ((ValueIdx.contrEquiv1 dot_S8192x256_S256x256_S8192x256_1_0_0_1_n_n 256 rfl rfl).symm k) = ix2 r k := funext fun b => Fin.ext (by
    match b with
    | ⟨0, _⟩ => exact lhsB_0 _ _
    | ⟨1, _⟩ => exact (lhsB_1 _ _).trans hk)
  have er : dot_S8192x256_S256x256_S8192x256_1_0_0_1_n_n.rhsIdx (ix2 r j) ((ValueIdx.contrEquiv1 dot_S8192x256_S256x256_S8192x256_1_0_0_1_n_n 256 rfl rfl).symm k) = ix2 k j := funext fun b => Fin.ext (by
    match b with
    | ⟨0, _⟩ => exact (rhsB_0 _ _).trans hk
    | ⟨1, _⟩ => exact rhsB_1 _ _)
  rw [el, er]

/-! ### The third product: the third weights on the left, both operands contracted on their second axis -/

/-- The left operand's row is the result's row (the output). -/
theorem lhsC_0 (i : S8x8192.Idx) (q : dot_S8x256_S8192x256_S8x8192_1_1_0_0_n_n.contr.Idx) :
    (dot_S8x256_S8192x256_S8x8192_1_1_0_0_n_n.lhsIdx i q 0).val = (i 0).val := by
  unfold DotDims.lhsIdx
  rw [dif_neg (show ¬(0 : Fin S8x256.rank) ∈ dot_S8x256_S8192x256_S8x8192_1_1_0_0_n_n.lhsBatch by decide), dif_pos (show (0 : Fin S8x256.rank) ∈ dot_S8x256_S8192x256_S8x8192_1_1_0_0_n_n.lhsNonContracting by decide)]
  rfl
/-- The left operand's column is the contracted index. -/
theorem lhsC_1 (i : S8x8192.Idx) (q : dot_S8x256_S8192x256_S8x8192_1_1_0_0_n_n.contr.Idx) :
    (dot_S8x256_S8192x256_S8x8192_1_1_0_0_n_n.lhsIdx i q 1).val = (q ⟨0, by decide⟩).val :=
  dot_S8x256_S8192x256_S8x8192_1_1_0_0_n_n.lhsIdx_val_of_single rfl i q
/-- The right operand's row is the result's column (the row of the block). -/
theorem rhsC_0 (i : S8x8192.Idx) (q : dot_S8x256_S8192x256_S8x8192_1_1_0_0_n_n.contr.Idx) :
    (dot_S8x256_S8192x256_S8x8192_1_1_0_0_n_n.rhsIdx i q 0).val = (i 1).val := by
  unfold DotDims.rhsIdx
  rw [dif_neg (show ¬(0 : Fin S8192x256.rank) ∈ dot_S8x256_S8192x256_S8x8192_1_1_0_0_n_n.rhsBatch by decide), dif_pos (show (0 : Fin S8192x256.rank) ∈ dot_S8x256_S8192x256_S8x8192_1_1_0_0_n_n.rhsNonContracting by decide)]
  rfl
/-- The right operand's column is the contracted index. -/
theorem rhsC_1 (i : S8x8192.Idx) (q : dot_S8x256_S8192x256_S8x8192_1_1_0_0_n_n.contr.Idx) :
    (dot_S8x256_S8192x256_S8x8192_1_1_0_0_n_n.rhsIdx i q 1).val = (q ⟨0, by decide⟩).val :=
  dot_S8x256_S8192x256_S8x8192_1_1_0_0_n_n.rhsIdx_val_of_single rfl i q

/-- The product into the zero accumulator at `(o, r)`: `∑ k, w (o, k) * h (r, k)`. -/
theorem mmC_apply (w : FVec Ideal S8x256 .bf16) (h : FVec Ideal S8192x256 .bf16) (o : Fin 8) (r : Fin 8192) :
    matmul dot_S8x256_S8192x256_S8x8192_1_1_0_0_n_n none w h (constant (F := Ideal) S8x8192 .f32 0x00000000#32) (ix2 o r)
      = ∑ k : Fin 256, w (ix2 o k) * h (ix2 r k) := by
  simp only [matmul]
  rw [Ideal.matmul_constant_zero_apply, ← Equiv.sum_comp (ValueIdx.contrEquiv1 dot_S8x256_S8192x256_S8x8192_1_1_0_0_n_n 256 rfl rfl).symm]
  refine Finset.sum_congr rfl fun k _ => ?_
  have hk := ValueIdx.contrEquiv1_symm_val dot_S8x256_S8192x256_S8x8192_1_1_0_0_n_n 256 rfl rfl k
  have el : dot_S8x256_S8192x256_S8x8192_1_1_0_0_n_n.lhsIdx (ix2 o r) ((ValueIdx.contrEquiv1 dot_S8x256_S8192x256_S8x8192_1_1_0_0_n_n 256 rfl rfl).symm k) = ix2 o k := funext fun b => Fin.ext (by
    match b with
    | ⟨0, _⟩ => exact lhsC_0 _ _
    | ⟨1, _⟩ => exact (lhsC_1 _ _).trans hk)
  have er : dot_S8x256_S8192x256_S8x8192_1_1_0_0_n_n.rhsIdx (ix2 o r) ((ValueIdx.contrEquiv1 dot_S8x256_S8192x256_S8x8192_1_1_0_0_n_n 256 rfl rfl).symm k) = ix2 r k := funext fun b => Fin.ext (by
    match b with
    | ⟨0, _⟩ => exact rhsC_0 _ _
    | ⟨1, _⟩ => exact (rhsC_1 _ _).trans hk)
  rw [el, er]

/-! ### The layout operations at an index -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the eight outputs: entry `r` of the reduction along axis 0 is `∑ o, y (o, r)`. -/
theorem laneSum_apply (y : FVec Ideal S8x8192 .f32) (hφ : FKind.Formats .f32)
    (hacc : (0x00000000#32 : BitVec 32) = FKind.add.neutral .f32 hφ) (r : Fin 8192) :
    multiReduction (F := Ideal) .add [0] S8192 y 0x00000000#32 reduces_S8x8192_S8192 hφ hacc (ix1 r)
      = ∑ o : Fin 8, y (ix2 o r) := by
  refine (Ideal.multiReduction_add_single y 0x00000000#32 reduces_S8x8192_S8192 hφ hacc (ix1 r)).trans ?_
  show ∑ o : Fin 8, y (reduces_S8x8192_S8192.lift (ix1 r) o) = ∑ o : Fin 8, y (ix2 o r)
  refine Finset.sum_congr rfl fun o _ => congrArg y (funext fun b => Fin.ext ?_)
  match b with
  | ⟨0, _⟩ => rfl
  | ⟨1, _⟩ => rfl

/-! ### The three layers at an entry -/

/-- The first layer at `(r, j)`: the product of the block's row `r` with the first weights, read transposed
    (`w (k, j)` from input `k` to output `j`), the row of biases added, clamped at zero. The changes of float format
    and the casts to the same shape are identities. -/
theorem layerA_apply (a : FVec Ideal S8192x64 .f32) (w : FVec Ideal S64x256 .bf16) (b : FVec Ideal S1x256 .f32)
    (r : Fin 8192) (j : Fin 256) :
    maximumf (addf (matmul dot_S8192x64_S64x256_S8192x256_1_0_0_1_n_n none (truncf .bf16 a bitsLt_bf16_f32)
          (shapeCast S64x256 w shapeCasts_S64x256_S64x256) (constant (F := Ideal) S8192x256 .f32 0x00000000#32))
        (broadcastTo S8192x256 (shapeCast S1x256 b shapeCasts_S1x256_S1x256) broadcasts_S1x256_S8192x256))
      (broadcast S8192x256 (Scalar.ofBits (F := Ideal) .f32 0x00000000#32)) (ix2 r j)
      = Cert.Mlp.layer (fun k => a (ix2 r k)) (fun j k => w (ix2 k j)) (fun j => b (ix2 (0 : Fin 1) j)) j := by
  show max (matmul dot_S8192x64_S64x256_S8192x256_1_0_0_1_n_n none (truncf .bf16 a bitsLt_bf16_f32)
          (shapeCast S64x256 w shapeCasts_S64x256_S64x256) (constant (F := Ideal) S8192x256 .f32 0x00000000#32) (ix2 r j)
      + broadcastTo S8192x256 (shapeCast S1x256 b shapeCasts_S1x256_S1x256) broadcasts_S1x256_S8192x256 (ix2 r j))
      (Ideal.ofBits .f32 0x00000000#32) = _
  rw [shapeCast_self, shapeCast_self, mmA_apply, broadcastTo_1b_ab_apply]
  rfl

/-- The second layer at `(r, j)`, from the first hidden layer `a` (256 inputs), its weights read transposed. -/
theorem layerB_apply (a : FVec Ideal S8192x256 .f32) (w : FVec Ideal S256x256 .bf16) (b : FVec Ideal S1x256 .f32)
    (r : Fin 8192) (j : Fin 256) :
    maximumf (addf (matmul dot_S8192x256_S256x256_S8192x256_1_0_0_1_n_n none (truncf .bf16 a bitsLt_bf16_f32)
          (shapeCast S256x256 w shapeCasts_S256x256_S256x256) (constant (F := Ideal) S8192x256 .f32 0x00000000#32))
        (broadcastTo S8192x256 (shapeCast S1x256 b shapeCasts_S1x256_S1x256) broadcasts_S1x256_S8192x256))
      (broadcast S8192x256 (Scalar.ofBits (F := Ideal) .f32 0x00000000#32)) (ix2 r j)
      = Cert.Mlp.layer (fun k => a (ix2 r k)) (fun j k => w (ix2 k j)) (fun j => b (ix2 (0 : Fin 1) j)) j := by
  show max (matmul dot_S8192x256_S256x256_S8192x256_1_0_0_1_n_n none (truncf .bf16 a bitsLt_bf16_f32)
          (shapeCast S256x256 w shapeCasts_S256x256_S256x256) (constant (F := Ideal) S8192x256 .f32 0x00000000#32) (ix2 r j)
      + broadcastTo S8192x256 (shapeCast S1x256 b shapeCasts_S1x256_S1x256) broadcasts_S1x256_S8192x256 (ix2 r j))
      (Ideal.ofBits .f32 0x00000000#32) = _
  rw [shapeCast_self, shapeCast_self, mmB_apply, broadcastTo_1b_ab_apply]
  rfl

/-- The third layer is computed transposed, entry `(o, r)`, with the weights `w` on the left, as stored, and a column
    of biases; commuting each product gives the dense layer of row `r` of the second hidden layer `a`. -/
theorem layerC_apply (w : FVec Ideal S8x256 .bf16) (a : FVec Ideal S8192x256 .f32) (b : FVec Ideal S8x1 .f32)
    (o : Fin 8) (r : Fin 8192) :
    maximumf (addf (matmul dot_S8x256_S8192x256_S8x8192_1_1_0_0_n_n none (shapeCast S8x256 w shapeCasts_S8x256_S8x256)
          (truncf .bf16 a bitsLt_bf16_f32) (constant (F := Ideal) S8x8192 .f32 0x00000000#32))
        (broadcastTo S8x8192 (shapeCast S8x1 b shapeCasts_S8x1_S8x1) broadcasts_S8x1_S8x8192))
      (broadcast S8x8192 (Scalar.ofBits (F := Ideal) .f32 0x00000000#32)) (ix2 o r)
      = Cert.Mlp.layer (fun k => a (ix2 r k)) (fun j k => w (ix2 j k)) (fun j => b (ix2 j (0 : Fin 1))) o := by
  show max (matmul dot_S8x256_S8192x256_S8x8192_1_1_0_0_n_n none (shapeCast S8x256 w shapeCasts_S8x256_S8x256)
          (truncf .bf16 a bitsLt_bf16_f32) (constant (F := Ideal) S8x8192 .f32 0x00000000#32) (ix2 o r)
      + broadcastTo S8x8192 (shapeCast S8x1 b shapeCasts_S8x1_S8x1) broadcasts_S8x1_S8x8192 (ix2 o r))
      (Ideal.ofBits .f32 0x00000000#32) = _
  rw [shapeCast_self, shapeCast_self, mmC_apply, broadcastTo_a1_ab_apply]
  unfold Cert.Mlp.layer
  rw [Finset.sum_congr rfl fun k _ => mul_comm (w (ix2 o k)) (truncf .bf16 a bitsLt_bf16_f32 (ix2 r k))]
  rfl

/-! ### The rescaling and the transposition -/

/-- Each column `r` of an `8 × 8192` array times one hundred over its sum, then transposed: entry `(r, o)` is the
    rescaling of the column read as a row of eight. -/
theorem rescale_apply (y : FVec Ideal S8x8192 .f32) (hφ : FKind.Formats .f32)
    (hacc : (0x00000000#32 : BitVec 32) = FKind.add.neutral .f32 hφ) (r : Fin 8192) (o : Fin 8) :
    transpose S8192x8 [1, 0] (mulf y (broadcastTo S8x8192
        (divf (broadcast S1x8192 (Scalar.ofBits (F := Ideal) .f32 0x42C80000#32))
          (shapeCast S1x8192 (multiReduction (F := Ideal) .add [0] S8192 y 0x00000000#32 reduces_S8x8192_S8192 hφ hacc)
            shapeCasts_S8192_S1x8192)) broadcasts_S1x8192_S8x8192)) transposes_S8x8192_p1_0_S8192x8 (ix2 r o)
      = Cert.Mlp.rescale (fun o' => y (ix2 o' r)) o := by
  refine (transpose_ix2_apply _ transposes_S8x8192_p1_0_S8192x8 r o).trans ?_
  show y (ix2 o r) * broadcastTo S8x8192 (divf (broadcast S1x8192 (Scalar.ofBits (F := Ideal) .f32 0x42C80000#32))
          (shapeCast S1x8192 (multiReduction (F := Ideal) .add [0] S8192 y 0x00000000#32 reduces_S8x8192_S8192 hφ hacc)
            shapeCasts_S8192_S1x8192)) broadcasts_S1x8192_S8x8192 (ix2 o r) = _
  rw [broadcastTo_1b_ab_apply]
  show y (ix2 o r) * Ideal.div (Ideal.ofBits .f32 0x42C80000#32)
      (shapeCast S1x8192 (multiReduction (F := Ideal) .add [0] S8192 y 0x00000000#32 reduces_S8x8192_S8192 hφ hacc)
        shapeCasts_S8192_S1x8192 (ix2 (0 : Fin 1) r)) = _
  rw [shapeCast_a_1a_apply, laneSum_apply]
  rfl

/-- Entry `(r, o)` of the body's result block is the row function of row `r` of the `x` block `x0`, with the first
    two weight operands read transposed (`x1 (k, j)`, `x3 (k, j)` are the weights from input `k` to output `j`), the
    third as stored, the biases along their one long axis. -/
theorem pay_apply (x0 : Vec Ideal S8192x64 .f32) (x1 : Vec Ideal S64x256 .bf16) (x2 : Vec Ideal S1x256 .f32)
    (x3 : Vec Ideal S256x256 .bf16) (x4 : Vec Ideal S1x256 .f32) (x5 : Vec Ideal S8x256 .bf16) (x6 : Vec Ideal S8x1 .f32)
    (r : Fin 8192) (o : Fin 8) :
    k0_pay1 (k0_pay2 x0 x1 x2 x3 x4 x5 x6) (ix2 r o)
      = Cert.Mlp.rowOut (fun k => x0 (ix2 r k)) (fun j k => x1 (ix2 k j)) (fun j => x2 (ix2 (0 : Fin 1) j))
          (fun j k => x3 (ix2 k j)) (fun j => x4 (ix2 (0 : Fin 1) j)) (fun j k => x5 (ix2 j k))
          (fun j => x6 (ix2 j (0 : Fin 1))) o := by
  unfold k0_pay1 k0_pay2
  refine (rescale_apply _ _ _ r o).trans ?_
  unfold Cert.Mlp.rowOut
  refine congrArg (fun y => Cert.Mlp.rescale y o) (funext fun o' => ?_)
  refine (layerC_apply x5 _ x6 o' r).trans ?_
  refine congrArg (fun h => Cert.Mlp.layer h (fun j k => x5 (ix2 j k)) (fun j => x6 (ix2 j (0 : Fin 1))) o')
    (funext fun j => ?_)
  refine (layerB_apply _ x3 x4 r j).trans ?_
  refine congrArg (fun h => Cert.Mlp.layer h (fun j k => x3 (ix2 k j)) (fun j => x4 (ix2 (0 : Fin 1) j)) j)
    (funext fun i => ?_)
  exact layerA_apply x0 x1 x2 r i

end Cert.KernelIdeal.Payload

end
-- ==== Proof.Blocks.lean ====
import proofs.«417296_j56934086476542_3_alg».proof.Proof.Gen.KernelIdeal.Frame
import Idealize.ShloMosaic.Lib.Pipeline.Value
import Idealize.ShloMosaic.Lib.ValueIdx

/-!
# The windows' blocks as rectangles of their arrays

The batch axis of 500000 rows is walked in 62 blocks of 8192 rows; 61 blocks are whole and the last holds the
288 rows 499712‥499999, so block `t` has `rows t = min 8192 (500000 - 8192 t)` rows inside the array, both for
the input `x` (64 columns) and for the result (8 columns). Element `(y₀, y₁)` of block `t` is element
`(8192 t + y₀, y₁)` of the array, and the 62 blocks of the result together cover every row. The six weight and
bias operands are each one block, the whole array, at every point.
-/

set_option maxRecDepth 16384

noncomputable section

namespace Cert.KernelIdeal.Blocks

open Cert.KernelIdeal Cert.KernelIdeal.Gen
open Idealize.ShloMosaic Idealize.ShloMosaic.TcCoe Idealize.ShloMosaic.ValueIdx

/-- The number of rows of block `t` that lie inside the 500000-row arrays. -/
def rows (t : Fin cfg0.N) : ℕ := min 8192 (500000 - t.val * 8192)

/-- The grid has 62 points. -/
theorem N_eq : cfg0.N = 62 := by decide +kernel

theorem val_lt (t : Fin cfg0.N) : t.val < 62 := lt_of_lt_of_eq t.isLt N_eq

/-- The index map and the cut of `x`'s window at every point of the grid: block `t` sits at block index `(t, 0)`,
    and the transfer moves `min 8192 (500000 - 8192 t)` rows and all 64 columns. -/
theorem idx_facts0 : ∀ t : Fin cfg0.N, win0_0.index t (0 : Fin 2) = t.val ∧ win0_0.index t (1 : Fin 2) = 0
    ∧ win0_0.xsize (grid0.coords t) (0 : Fin 2) = min 8192 (500000 - t.val * 8192)
    ∧ win0_0.xsize (grid0.coords t) (1 : Fin 2) = 64 :=
  (by decide +kernel : ∀ t : Fin grid0.N, _)

/-- The same for the result's window, with 8 columns. -/
theorem idx_facts7 : ∀ t : Fin cfg0.N, win0_7.index t (0 : Fin 2) = t.val ∧ win0_7.index t (1 : Fin 2) = 0
    ∧ win0_7.xsize (grid0.coords t) (0 : Fin 2) = min 8192 (500000 - t.val * 8192)
    ∧ win0_7.xsize (grid0.coords t) (1 : Fin 2) = 8 :=
  (by decide +kernel : ∀ t : Fin grid0.N, _)

/-- The weight and bias windows sit at block index `(0, 0)` at every point. -/
theorem idx_factsW : ∀ t : Fin cfg0.N, (∀ a : Fin 2, win0_1.index t a = 0) ∧ (∀ a : Fin 2, win0_2.index t a = 0)
    ∧ (∀ a : Fin 2, win0_3.index t a = 0) ∧ (∀ a : Fin 2, win0_4.index t a = 0)
    ∧ (∀ a : Fin 2, win0_5.index t a = 0) ∧ (∀ a : Fin 2, win0_6.index t a = 0) :=
  (by decide +kernel : ∀ t : Fin grid0.N, _)

theorem rows_pos (t : Fin cfg0.N) : 0 < rows t := by
  have ht := val_lt t
  unfold rows
  omega

theorem rows_le (t : Fin cfg0.N) : rows t ≤ 8192 ∧ t.val * 8192 + rows t ≤ 500000 := by
  have ht := val_lt t
  unfold rows
  omega

/-- The part of block `t` the transfers move: `rows t` rows, all the columns; the same rows for `x` and for the result. -/
theorem xsize0_0 (t : Fin cfg0.N) : (cfg0.win 0).xsize (cfg0.grid.coords t) 0 = rows t := (idx_facts0 t).2.2.1
theorem xsize0_1 (t : Fin cfg0.N) : (cfg0.win 0).xsize (cfg0.grid.coords t) 1 = 64 := (idx_facts0 t).2.2.2
theorem xsize7_0 (t : Fin cfg0.N) : (cfg0.win 7).xsize (cfg0.grid.coords t) 0 = rows t := (idx_facts7 t).2.2.1
theorem xsize7_1 (t : Fin cfg0.N) : (cfg0.win 7).xsize (cfg0.grid.coords t) 1 = 8 := (idx_facts7 t).2.2.2

/-- Where an element of `x`'s block `t` sits in the array: row `8192 t + y₀`, column `y₁`. -/
theorem blk0_emb_0 (t : Fin cfg0.N) (y : ((cfg0.win 0).xblock (cfg0.grid.coords t)).Idx) :
    ((((cfg0.win 0).blk t).view.emb y) 0).val = t.val * 8192 + (y 0).val := by
  have e := win0_0.rect_emb_val t y (0 : Fin 2)
  rw [(idx_facts0 t).1] at e
  exact e
theorem blk0_emb_1 (t : Fin cfg0.N) (y : ((cfg0.win 0).xblock (cfg0.grid.coords t)).Idx) :
    ((((cfg0.win 0).blk t).view.emb y) 1).val = (y 1).val :=
  win0_0.rect_emb_val_of_index_zero t (1 : Fin 2) (idx_facts0 t).2.1 y

/-- Where an element of the result's block `t` sits in the array: row `8192 t + y₀`, column `y₁`. -/
theorem blk7_emb_0 (t : Fin cfg0.N) (y : ((cfg0.win 7).xblock (cfg0.grid.coords t)).Idx) :
    ((((cfg0.win 7).blk t).view.emb y) 0).val = t.val * 8192 + (y 0).val := by
  have e := win0_7.rect_emb_val t y (0 : Fin 2)
  rw [(idx_facts7 t).1] at e
  exact e
theorem blk7_emb_1 (t : Fin cfg0.N) (y : ((cfg0.win 7).xblock (cfg0.grid.coords t)).Idx) :
    ((((cfg0.win 7).blk t).view.emb y) 1).val = (y 1).val :=
  win0_7.rect_emb_val_of_index_zero t (1 : Fin 2) (idx_facts7 t).2.1 y

/-- An index of the result array is in point `t`'s block iff, on each axis, its coordinate lies in the block's part inside
    the array: from the block index times the block size, over the cut size. -/
theorem mem_blk7 (t : Fin cfg0.N) (i : S500000x8.Idx) :
    i ∈ ((cfg0.win 7).blk t).view.set ↔ ∀ a : Fin 2, win0_7.index t a * S8192x8.size a ≤ (i a).val
      ∧ (i a).val < win0_7.index t a * S8192x8.size a + win0_7.xsize (grid0.coords t) a := by
  show i ∈ ((View.whole main_v8).slice (win0_7.rect t)).set ↔ _
  rw [View.set_slice_whole, Rect.mem_set_unit]
  exact Iff.rfl

/-- Every entry of the result array lies in the block of some point, and every point writes its block back. -/
theorem cover7 (c : Dev nD) (i : (((cfg0.win 7).arr.view.loc (c.tc : Thread nD τ))).2.ty.Idx) :
    ∃ t : Fin cfg0.N, (cfg0.win 7).flush t = true ∧ i ∈ ((cfg0.win 7).blk t).view.set := by
  change S500000x8.Idx at i
  have h0 : (i 0).val < 500000 := (i 0).isLt
  have h1 : (i 1).val < 8 := (i 1).isLt
  -- row r lies in block r / 8192
  obtain ⟨t, ht⟩ : ∃ t : Fin cfg0.N, t.val = (i 0).val / 8192 :=
    ⟨⟨(i 0).val / 8192, lt_of_lt_of_eq (by omega : (i 0).val / 8192 < 62) N_eq.symm⟩, rfl⟩
  refine ⟨t, flush0_7 t, ?_⟩
  rw [mem_blk7]
  obtain ⟨e0, e1, e2, e3⟩ := idx_facts7 t
  intro a
  match a with
  | ⟨0, _⟩ =>
    show win0_7.index t (0 : Fin 2) * 8192 ≤ (i 0).val
      ∧ (i 0).val < win0_7.index t (0 : Fin 2) * 8192 + win0_7.xsize (grid0.coords t) (0 : Fin 2)
    rw [e0, e2, ht]; omega
  | ⟨1, _⟩ =>
    show win0_7.index t (1 : Fin 2) * 8 ≤ (i 1).val
      ∧ (i 1).val < win0_7.index t (1 : Fin 2) * 8 + win0_7.xsize (grid0.coords t) (1 : Fin 2)
    rw [e1, e3]; omega

/-- The weight and bias operands: the one block is the whole array, element for element, at every point. -/
theorem blk1_emb (t : Fin cfg0.N) (y : ((cfg0.win 1).xblock (cfg0.grid.coords t)).Idx) (a : Fin 2) :
    ((((cfg0.win 1).blk t).view.emb y) a).val = (y a).val :=
  win0_1.rect_emb_val_of_index_zero t a ((idx_factsW t).1 a) y
theorem blk2_emb (t : Fin cfg0.N) (y : ((cfg0.win 2).xblock (cfg0.grid.coords t)).Idx) (a : Fin 2) :
    ((((cfg0.win 2).blk t).view.emb y) a).val = (y a).val :=
  win0_2.rect_emb_val_of_index_zero t a ((idx_factsW t).2.1 a) y
theorem blk3_emb (t : Fin cfg0.N) (y : ((cfg0.win 3).xblock (cfg0.grid.coords t)).Idx) (a : Fin 2) :
    ((((cfg0.win 3).blk t).view.emb y) a).val = (y a).val :=
  win0_3.rect_emb_val_of_index_zero t a ((idx_factsW t).2.2.1 a) y
theorem blk4_emb (t : Fin cfg0.N) (y : ((cfg0.win 4).xblock (cfg0.grid.coords t)).Idx) (a : Fin 2) :
    ((((cfg0.win 4).blk t).view.emb y) a).val = (y a).val :=
  win0_4.rect_emb_val_of_index_zero t a ((idx_factsW t).2.2.2.1 a) y
theorem blk5_emb (t : Fin cfg0.N) (y : ((cfg0.win 5).xblock (cfg0.grid.coords t)).Idx) (a : Fin 2) :
    ((((cfg0.win 5).blk t).view.emb y) a).val = (y a).val :=
  win0_5.rect_emb_val_of_index_zero t a ((idx_factsW t).2.2.2.2.1 a) y
theorem blk6_emb (t : Fin cfg0.N) (y : ((cfg0.win 6).xblock (cfg0.grid.coords t)).Idx) (a : Fin 2) :
    ((((cfg0.win 6).blk t).view.emb y) a).val = (y a).val :=
  win0_6.rect_emb_val_of_index_zero t a ((idx_factsW t).2.2.2.2.2 a) y

end Cert.KernelIdeal.Blocks

end
-- ==== Proof.Prefix.lean ====
import proofs.«417296_j56934086476542_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

/-!
# The operands the host prepares, read at an index

Before the one region, `@main` transposes `W1` and `W2` and narrows them and `W3` to sixteen bits, and
reshapes the three biases to a row, a row and a column. On the extended reals the narrowing is the identity, so
entry `(k, j)` of the first operand is `W1 (j, k)`, entry `(k, j)` of the second `W2 (j, k)`, the third is
`W3` itself, and the reshaped biases hold `b1 j`, `b2 j` and `b3 o` at `(0, j)`, `(0, j)` and `(o, 0)`.
-/

noncomputable section

namespace Cert.KernelIdeal.Prefix

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The whole first operand: `W1` transposed, then narrowed. -/
theorem V_v1_eq (c : Dev nD) :
    @Eq (S64x256.Idx → EReal) (V m c main_v1)
      (truncf .bf16 (transpose S64x256 [1, 0] (m ((c : Thread nD τ).loc main_arg1) : S256x64.Idx → EReal)
        transposes_S256x64_S64x256_1_0 : FVec Ideal S64x256 .f32) bitsLt_bf16_f32 : FVec Ideal S64x256 .bf16) := by
  dsimp only [Gen.V, Gen.hostOps0]; after_results

/-- The whole second operand: `W2` transposed, then narrowed. -/
theorem V_v3_eq (c : Dev nD) :
    @Eq (S256x256.Idx → EReal) (V m c main_v3)
      (truncf .bf16 (transpose S256x256 [1, 0] (m ((c : Thread nD τ).loc main_arg3) : S256x256.Idx → EReal)
        transposes_S256x256_S256x256_1_0 : FVec Ideal S256x256 .f32) bitsLt_bf16_f32 : FVec Ideal S256x256 .bf16) := by
  dsimp only [Gen.V, Gen.hostOps0]; after_results

/-- The whole third operand: `W3` narrowed. -/
theorem V_v4_eq (c : Dev nD) :
    @Eq (S8x256.Idx → EReal) (V m c main_v4)
      (truncf .bf16 (m ((c : Thread nD τ).loc main_arg5) : FVec Ideal S8x256 .f32) bitsLt_bf16_f32 : FVec Ideal S8x256 .bf16) := by
  dsimp only [Gen.V, Gen.hostOps0]; after_results

/-- The first bias reshaped `[256] → [1, 256]`: the same elements in row-major order. -/
theorem V_v5_eq (c : Dev nD) :
    @Eq (S1x256.Idx → EReal) (V m c main_v5)
      (shapeCast S1x256 (m ((c : Thread nD τ).loc main_arg2) : S256.Idx → EReal) shapeCasts_S256_S1x256) := by
  dsimp only [Gen.V, Gen.hostOps0]; after_results; rfl

/-- The second bias reshaped `[256] → [1, 256]`. -/
theorem V_v6_eq (c : Dev nD) :
    @Eq (S1x256.Idx → EReal) (V m c main_v6)
      (shapeCast S1x256 (m ((c : Thread nD τ).loc main_arg4) : S256.Idx → EReal) shapeCasts_S256_S1x256) := by
  dsimp only [Gen.V, Gen.hostOps0]; after_results; rfl

/-- The third bias reshaped `[8] → [8, 1]`. -/
theorem V_v7_eq (c : Dev nD) :
    @Eq (S8x1.Idx → EReal) (V m c main_v7)
      (shapeCast S8x1 (m ((c : Thread nD τ).loc main_arg6) : S8.Idx → EReal) shapeCasts_S8_S8x1) := by
  dsimp only [Gen.V, Gen.hostOps0]; after_results; rfl

/-- The first layer's operand is `W1` transposed. -/
theorem V_v1_apply (c : Dev nD) (k : Fin 64) (j : Fin 256) :
    (V m c main_v1 : S64x256.Idx → EReal) (ix2 k j) = (m ((c : Thread nD τ).loc main_arg1) : S256x64.Idx → EReal) (ix2 j k) := by
  refine (congrFun (V_v1_eq m c) (ix2 k j)).trans ?_
  -- narrowing is the identity on the extended reals; entry (k, j) of a transpose is entry (j, k)
  rw [truncf_apply]
  exact transpose_ix2_apply _ transposes_S256x64_S64x256_1_0 k j

/-- The second layer's operand is `W2` transposed. -/
theorem V_v3_apply (c : Dev nD) (k : Fin 256) (j : Fin 256) :
    (V m c main_v3 : S256x256.Idx → EReal) (ix2 k j) = (m ((c : Thread nD τ).loc main_arg3) : S256x256.Idx → EReal) (ix2 j k) := by
  refine (congrFun (V_v3_eq m c) (ix2 k j)).trans ?_
  rw [truncf_apply]
  exact transpose_ix2_apply _ transposes_S256x256_S256x256_1_0 k j

/-- The third layer's operand is `W3` as it is. -/
theorem V_v4_apply (c : Dev nD) (o : Fin 8) (k : Fin 256) :
    (V m c main_v4 : S8x256.Idx → EReal) (ix2 o k) = (m ((c : Thread nD τ).loc main_arg5) : S8x256.Idx → EReal) (ix2 o k) := by
  refine (congrFun (V_v4_eq m c) (ix2 o k)).trans ?_
  rw [truncf_apply]

/-- The first bias as a row. -/
theorem V_v5_apply (c : Dev nD) (z : Fin 1) (j : Fin 256) :
    (V m c main_v5 : S1x256.Idx → EReal) (ix2 z j) = (m ((c : Thread nD τ).loc main_arg2) : S256.Idx → EReal) (ix1 j) := by
  refine (congrFun (V_v5_eq m c) (ix2 z j)).trans ?_
  exact shapeCast_a_1a_apply _ shapeCasts_S256_S1x256 z j

/-- The second bias as a row. -/
theorem V_v6_apply (c : Dev nD) (z : Fin 1) (j : Fin 256) :
    (V m c main_v6 : S1x256.Idx → EReal) (ix2 z j) = (m ((c : Thread nD τ).loc main_arg4) : S256.Idx → EReal) (ix1 j) := by
  refine (congrFun (V_v6_eq m c) (ix2 z j)).trans ?_
  exact shapeCast_a_1a_apply _ shapeCasts_S256_S1x256 z j

/-- The third bias as a column. -/
theorem V_v7_apply (c : Dev nD) (o : Fin 8) (z : Fin 1) :
    (V m c main_v7 : S8x1.Idx → EReal) (ix2 o z) = (m ((c : Thread nD τ).loc main_arg6) : S8.Idx → EReal) (ix1 o) := by
  refine (congrFun (V_v7_eq m c) (ix2 o z)).trans ?_
  -- the row-major position of (o, z) in [8, 1] is o * 1 + z = o, the position of o in [8]
  refine shapeCast_apply _ shapeCasts_S8_S8x1 (ix2 o z) (ix1 o) ?_
  have hz : z.val = 0 := by omega
  rw [Shape.rowMajor_val_two, Shape.rowMajor_val_one]
  show o.val = o.val * 1 + z.val
  rw [hz, Nat.mul_one, Nat.add_zero]

end Cert.KernelIdeal.Prefix

end
-- ==== Proof.RunKI.lean ====
import proofs.«417296_j56934086476542_3_alg».proof.Proof.BodyKI
import proofs.«417296_j56934086476542_3_alg».proof.Proof.PayloadKI
import proofs.«417296_j56934086476542_3_alg».proof.Proof.Blocks
import proofs.«417296_j56934086476542_3_alg».proof.Proof.Prefix
import Idealize.ShloMosaic.Lib.Pipeline.FrameBody
import Idealize.ShloMosaic.Lib.Pipeline.Value
import Idealize.ShloMosaic.Lib.Ring
import Idealize.ShloMosaic.Lib.Tactic

/-!
# The idealized kernel's run, and the array it leaves

The grid walks the 500000 rows in 62 blocks of 8192; the last block has only 288 rows inside the arrays. When a
point's block of `x` is fetched, the staging buffer's rows past the array's end hold values nothing names, and the
body computes on them too; likewise the result's staging buffer is written whole and only its rows inside the array
are written back. What makes this harmless is that the network treats every row alone: row `r` of the body's
result block is the row function of row `r` of the `x` block (`Payload.pay_apply`), so on the rows inside the
array the result block does not depend on what the other rows of the `x` buffer held (`cut_out`). The proof data
therefore name, for the result's buffer after the body at point `t`, the body's value on the `x` block filled
out with zeros; the body obligation only asks for its rows inside the array.

With the obligation in hand the library's frame run gives termination, no fault, the arguments unchanged, and the
result array as the entry contents overwritten block by block. Each block written back is the network `G` of
the arguments read through that block (`flushed_eq`: the `x` block's row `y₀` is row `8192 t + y₀` of `x`, the
operands the host prepared are the transposed weights and the biases), and the blocks cover the array, so the
result array ends holding `G` of the seven arguments.
-/

set_option maxRecDepth 16384

noncomputable section

open scoped BigOperators

namespace Cert.KernelIdeal.Run

open Cert.KernelIdeal Cert.KernelIdeal.Gen Cert.KernelIdeal.Body Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The `x` block of point `t` filled out to the staging buffer's 8192 rows with zeros past the array's end. -/
def xfull (c : Dev nD) (t : Fin cfg0.N) : Vec Ideal S8192x64 .f32 :=
  (cfg0.win 0).fill (cfg0.grid.coords t) (fun _ => Scalar.ofBits (F := Ideal) .f32 0#32) (iblk m c 0 t)

/-- What the proof data name for the result's buffer after the body at point `t`. -/
def outAt (c : Dev nD) (t : Fin cfg0.N) : Vec Ideal S8192x8 .f32 :=
  outBlk (xfull m c t) (iblk m c 1 t) (iblk m c 2 t) (iblk m c 3 t) (iblk m c 4 t) (iblk m c 5 t) (iblk m c 6 t)

/-- The proof data of the one pipeline on core `c`: the arrays as the region finds them; after the body at point
    `t` the `x` buffer at its block (zeros past the array's end), the six operand buffers at their blocks, the
    result's at `outAt`; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-! ## What the body finds -/

/-- The `x` buffer, fetched at every point: the block on the rows inside the array, anything (`d`) past them. -/
theorem before0_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The result block's rows inside the array do not depend on the rows past its end -/

theorem hz : (![0, 0] : Fin 2 → Nat) = fun _ => 0 := funext fun a => by fin_cases a <;> rfl

/-- The one store's piece over whole loads is the body's arithmetic on the buffers' contents. -/
theorem outBlk_eq (x0 : Vec Ideal S8192x64 .f32) (x1 : Vec Ideal S64x256 .bf16) (x2 : Vec Ideal S1x256 .f32) (x3 : Vec Ideal S256x256 .bf16)
    (x4 : Vec Ideal S1x256 .f32) (x5 : Vec Ideal S8x256 .bf16) (x6 : Vec Ideal S8x1 .f32) :
    outBlk x0 x1 x2 x3 x4 x5 x6 = Body.pay x0 x1 x2 x3 x4 x5 x6 := by
  unfold outBlk
  rw [View.canon_unit_zero hz]
  simp only [View.ld_unit_zero (S := S8192x64) hz, View.ld_unit_zero (S := S64x256) hz, View.ld_unit_zero (S := S1x256) hz,
    View.ld_unit_zero (S := S256x256) hz, View.ld_unit_zero (S := S8x256) hz, View.ld_unit_zero (S := S8x1) hz]

/-- A filled block read at an index of its leading part is the filling. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill; rw [dif_pos ((w.moved_iff i j).mpr h)]

/-- Row `j₀` of the `x` block of point `t`, for `j` an index of the result's block inside the array: the two windows
    have the same rows inside the arrays. -/
def xrow (t : Fin cfg0.N) (j : ((cfg0.win 7).xblock (cfg0.grid.coords t)).Idx) (k : Fin 64) :
    ((cfg0.win 0).xblock (cfg0.grid.coords t)).Idx := fun a => match a with
  | ⟨0, _⟩ => ⟨(j 0).val, by
      show (j 0).val < (cfg0.win 0).xsize (cfg0.grid.coords t) 0
      rw [xsize0_0, ← xsize7_0]; exact (j 0).isLt⟩
  | ⟨1, _⟩ => ⟨k.val, by
      show k.val < (cfg0.win 0).xsize (cfg0.grid.coords t) 1
      rw [xsize0_1]; exact k.isLt⟩

/-- The output coordinate of an index of the result's block. -/
def ocol (t : Fin cfg0.N) (j : ((cfg0.win 7).xblock (cfg0.grid.coords t)).Idx) : Fin 8 :=
  ⟨(j 1).val, by
    have h : (j 1).val < (cfg0.win 7).xsize (cfg0.grid.coords t) 1 := (j 1).isLt
    rw [xsize7_1] at h; exact h⟩

/-- The rows inside the array of what point `t` leaves in the result's buffer: the row function of the `x` block's
    rows and the six operand blocks. -/
def outRows (c : Dev nD) (t : Fin cfg0.N) : ((cfg0.win 7).xblock (cfg0.grid.coords t)).Idx → EReal := fun j =>
  Cert.Mlp.rowOut (fun k => iblk m c 0 t (xrow t j k))
    (fun jj k => (iblk m c 1 t : Vec Ideal S64x256 .bf16) (ix2 k jj)) (fun jj => (iblk m c 2 t : Vec Ideal S1x256 .f32) (ix2 (0 : Fin 1) jj))
    (fun jj k => (iblk m c 3 t : Vec Ideal S256x256 .bf16) (ix2 k jj)) (fun jj => (iblk m c 4 t : Vec Ideal S1x256 .f32) (ix2 (0 : Fin 1) jj))
    (fun jj k => (iblk m c 5 t : Vec Ideal S8x256 .bf16) (ix2 jj k)) (fun jj => (iblk m c 6 t : Vec Ideal S8x1 .f32) (ix2 jj (0 : Fin 1)))
    (ocol t j)

/-- Whatever the `x` buffer holds past the array's end (`d0`), the result block's rows inside the array are `outRows`. -/
theorem cut_out (c : Dev nD) (t : Fin cfg0.N) (d0 : Vec Ideal S8192x64 .f32) :
    (cfg0.win 7).cut (cfg0.grid.coords t)
        (outBlk ((cfg0.win 0).fill (cfg0.grid.coords t) d0 (iblk m c 0 t)) (iblk m c 1 t) (iblk m c 2 t) (iblk m c 3 t)
          (iblk m c 4 t) (iblk m c 5 t) (iblk m c 6 t))
      = outRows m c t := by
  funext j
  have hr : (j 0).val < 8192 := by
    have h : (j 0).val < (cfg0.win 7).xsize (cfg0.grid.coords t) 0 := (j 0).isLt
    rw [xsize7_0] at h; have := (rows_le t).1; omega
  have hj : (cfg0.win 7).xinj (cfg0.grid.coords t) j = (ix2 (⟨(j 0).val, hr⟩ : Fin 8192) (ocol t j) : S8192x8.Idx) :=
    funext fun a => by match a with | ⟨0, _⟩ => rfl | ⟨1, _⟩ => rfl
  show outBlk _ _ _ _ _ _ _ ((cfg0.win 7).xinj (cfg0.grid.coords t) j) = _
  rw [hj, outBlk_eq]
  unfold Body.pay
  rw [Payload.pay_apply]
  unfold outRows
  congr 1
  funext k
  have hlt : ∀ a, ((ix2 (⟨(j 0).val, hr⟩ : Fin 8192) k : S8192x64.Idx) a).val < (cfg0.win 0).xsize (cfg0.grid.coords t) a := fun a => by
    match a with
    | ⟨0, _⟩ =>
      show (j 0).val < (cfg0.win 0).xsize (cfg0.grid.coords t) 0
      rw [xsize0_0, ← xsize7_0]; exact (j 0).isLt
    | ⟨1, _⟩ =>
      show k.val < (cfg0.win 0).xsize (cfg0.grid.coords t) 1
      rw [xsize0_1]; exact k.isLt
  refine (fill_apply_of_lt (cfg0.win 0) (cfg0.grid.coords t) d0 (iblk m c 0 t)
    (ix2 (⟨(j 0).val, hr⟩ : Fin 8192) k : S8192x64.Idx) hlt).trans ?_
  exact congrArg (iblk m c 0 t) (funext fun a => by match a with | ⟨0, _⟩ => rfl | ⟨1, _⟩ => rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((cfg0.win 7).fill (cfg0.grid.coords t) d ((cfg0.win 7).cut (cfg0.grid.coords t) ((dats m 0 c).after 7 t)))))

set_option maxHeartbeats 1000000 in
/-- The body at any point: the seven operand buffers hold their blocks (the `x` buffer anything past the array's
    end), so the body's triple applies; the `x` buffer is handed back as it was, and the result's buffer agrees with
    `outAt` on the rows inside the array (`cut_out`, twice). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0]
  iapply (sound_kernel (F := Ideal) c Set.univ _ _ _ _ _ _ _ _ _ _ _ _ _ _ _ _ _
    ((cfg0.win 0).fill (cfg0.grid.coords t) d0 (iblk m c 0 t)) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    have hx : (cfg0.win 0).cut (cfg0.grid.coords t) (xfull m c t) = iblk m c 0 t := (cfg0.win 0).cut_fill _ _ _
    rw [hx]; iexact H0
  isplitl [H1]; · iexact H1
  isplitl [H2]; · iexact H2
  isplitl [H3]; · iexact H3
  isplitl [H4]; · iexact H4
  isplitl [H5]; · iexact H5
  isplitl [H6]; · iexact H6
  iexists (outBlk ((cfg0.win 0).fill (cfg0.grid.coords t) d0 (iblk m c 0 t)) (iblk m c 1 t) (iblk m c 2 t) (iblk m c 3 t)
    (iblk m c 4 t) (iblk m c 5 t) (iblk m c 6 t))
  have hcut : (cfg0.win 7).cut (cfg0.grid.coords t) (outBlk ((cfg0.win 0).fill (cfg0.grid.coords t) d0 (iblk m c 0 t)) (iblk m c 1 t) (iblk m c 2 t) (iblk m c 3 t)
      (iblk m c 4 t) (iblk m c 5 t) (iblk m c 6 t)) = (cfg0.win 7).cut (cfg0.grid.coords t) (outAt m c t) :=
    (cut_out m c t d0).trans (cut_out m c t _).symm
  rw [(cfg0.win 7).fill_congr_cut (cfg0.grid.coords t) hcut]
  iexact H7

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of `@main` terminates without a fault, every array of the pipeline ending at what the
    library computes from the proof data and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the seven arguments end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Run

end
-- ==== Proof.ValueKI.lean ====
import proofs.«417296_j56934086476542_3_alg».proof.Proof.RunKI

/-!
# The result array is the network of the arguments

What point `t` writes back is the part inside the array of the body's result block, `outRows`: at `(y₀, y₁)` the row
function of row `y₀` of the `x` block and of the six operand blocks. Row `y₀` of the `x` block is row
`8192 t + y₀` of `x`; the operand blocks are whole arrays the host prepared: `W1` and `W2` transposed, `W3`, and the
three biases as a row, a row and a column. So that value is entry `(8192 t + y₀, y₁)` of `G` of the seven arguments,
which is `G` read through the result's block `t`. The 62 blocks cover the result array, so after the run it holds `G`.
-/

set_option maxRecDepth 16384

noncomputable section

open scoped BigOperators

namespace Cert.KernelIdeal.Final

open Cert.KernelIdeal Cert.KernelIdeal.Gen Cert.KernelIdeal.Body Cert.KernelIdeal.Blocks Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The network of the seven arguments' launch contents on core `c`. -/
def Gm (c : Dev nD) : Buf (Elt Ideal) ((c : Thread nD τ).loc main_v8) :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is `G` of the arguments read through the result's block `t`. -/
theorem flushed_eq (c : Dev nD) (t : Fin cfg0.N) :
    (dats m 0 c).flushed 7 t = ((cfg0.win 7).blk t).view.read (Elt Ideal) (Gm m c) := by
  show (cfg0.win 7).cut (cfg0.grid.coords t) ((dats m 0 c).after 7 t) = _
  rw [after0_7]
  unfold outAt xfull
  rw [cut_out]
  funext j
  have hj0 : (j 0).val < rows t := by
    have h : (j 0).val < (cfg0.win 7).xsize (cfg0.grid.coords t) 0 := (j 0).isLt
    rw [xsize7_0] at h; exact h
  have hrow : t.val * 8192 + (j 0).val < 500000 := by have := (rows_le t).2; omega
  have e7 : ((cfg0.win 7).blk t).view.emb j = (ix2 (⟨t.val * 8192 + (j 0).val, hrow⟩ : Fin 500000) (ocol t j) : S500000x8.Idx) :=
    funext fun a => Fin.ext (by
      match a with
      | ⟨0, _⟩ => exact blk7_emb_0 t j
      | ⟨1, _⟩ => exact blk7_emb_1 t j)
  show outRows m c t j = Gm m c (((cfg0.win 7).blk t).view.emb j)
  rw [e7]
  unfold Gm
  rw [Cert.Mlp.G_ix2]
  unfold outRows Cert.Mlp.entry
  refine congrFun (congr (congr (congr (congr (congr (congr (congrArg Cert.Mlp.rowOut ?_) ?_) ?_) ?_) ?_) ?_) ?_) _
  · -- the row of `x`
    funext k
    show V m c main_arg0 (((cfg0.win 0).blk t).view.emb (xrow t j k)) = _
    rw [V_main_arg0]
    exact congrArg (m ((c : Thread nD τ).loc main_arg0)) (funext fun a => Fin.ext (by
      match a with
      | ⟨0, _⟩ => exact blk0_emb_0 t (xrow t j k)
      | ⟨1, _⟩ => exact blk0_emb_1 t (xrow t j k)))
  · -- the first layer's weights, transposed by the host
    funext jj k
    show V m c main_v1 (((cfg0.win 1).blk t).view.emb (ix2 k jj : S64x256.Idx)) = _
    rw [show ((cfg0.win 1).blk t).view.emb (ix2 k jj : S64x256.Idx) = (ix2 k jj : S64x256.Idx) from
      funext fun a => Fin.ext (blk1_emb t _ a)]
    exact Prefix.V_v1_apply m c k jj
  · -- the first bias, a row
    funext jj
    show V m c main_v5 (((cfg0.win 2).blk t).view.emb (ix2 (0 : Fin 1) jj : S1x256.Idx)) = _
    rw [show ((cfg0.win 2).blk t).view.emb (ix2 (0 : Fin 1) jj : S1x256.Idx) = (ix2 (0 : Fin 1) jj : S1x256.Idx) from
      funext fun a => Fin.ext (blk2_emb t _ a)]
    exact Prefix.V_v5_apply m c 0 jj
  · -- the second layer's weights, transposed by the host
    funext jj k
    show V m c main_v3 (((cfg0.win 3).blk t).view.emb (ix2 k jj : S256x256.Idx)) = _
    rw [show ((cfg0.win 3).blk t).view.emb (ix2 k jj : S256x256.Idx) = (ix2 k jj : S256x256.Idx) from
      funext fun a => Fin.ext (blk3_emb t _ a)]
    exact Prefix.V_v3_apply m c k jj
  · -- the second bias, a row
    funext jj
    show V m c main_v6 (((cfg0.win 4).blk t).view.emb (ix2 (0 : Fin 1) jj : S1x256.Idx)) = _
    rw [show ((cfg0.win 4).blk t).view.emb (ix2 (0 : Fin 1) jj : S1x256.Idx) = (ix2 (0 : Fin 1) jj : S1x256.Idx) from
      funext fun a => Fin.ext (blk4_emb t _ a)]
    exact Prefix.V_v6_apply m c 0 jj
  · -- the third layer's weights, as stored
    funext jj k
    show V m c main_v4 (((cfg0.win 5).blk t).view.emb (ix2 jj k : S8x256.Idx)) = _
    rw [show ((cfg0.win 5).blk t).view.emb (ix2 jj k : S8x256.Idx) = (ix2 jj k : S8x256.Idx) from
      funext fun a => Fin.ext (blk5_emb t _ a)]
    exact Prefix.V_v4_apply m c jj k
  · -- the third bias, a column
    funext jj
    show V m c main_v7 (((cfg0.win 6).blk t).view.emb (ix2 jj (0 : Fin 1) : S8x1.Idx)) = _
    rw [show ((cfg0.win 6).blk t).view.emb (ix2 jj (0 : Fin 1) : S8x1.Idx) = (ix2 jj (0 : Fin 1) : S8x1.Idx) from
      funext fun a => Fin.ext (blk6_emb t _ a)]
    exact Prefix.V_v7_apply m c jj 0

/-- The result array after the run: the blocks written back cover it, each `G` read through it. -/
theorem final7 (c : Dev nD) : (dats m 0 c).arrAt 7 cfg0.N = Gm m c :=
  (dats m 0 c).arrAt_eq_of_cover 7 (Gm m c) (fun t _ => flushed_eq m c t) (cover7 c)

/-- The idealized kernel's run: every weakly fair execution terminates without a fault, the result array holding the
    network of the arguments and the seven arguments what they held. -/
theorem run : θ_run defs (onTc (τ := τ) (main (F := Ideal))) ⟨m, fun _ => 0, ρ⟩ (fun r => ∀ c : Dev nD,
      r.2.mem ((c.tc : Thread nD τ).loc main_v8) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 7).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Final

end
-- ==== Proof.RefValue.lean ====
import proofs.«417296_j56934086476542_3_alg».proof.Proof.Gen.ReferenceIdeal.Read
import proofs.«417296_j56934086476542_3_alg».proof.Proof.Spec

/-!
# The reference computes the network, index by index

The reference's `@main` is three dense layers with the clamp at zero and the rescaling of each row to one hundred,
written with whole-array operations: a transposed weight matrix and a `dot_general` per layer, a bias broadcast
along the rows, a `maximum` against a zero splat, a row sum with initial value zero, a quotient of a splat of one
hundred by that sum, and a product. Read at an index `(r, o)` each of these is the corresponding step of
`Cert.Mlp.entry`.

The proof goes layer by layer. Each layer's output at `(r, j)` is read through the clamp, the sum with the
broadcast bias, the contraction and the transpose, down to the entries `h (r, k)`, `W (j, k)` and `b j`; the
only facts used are that the composed index maps, at an index given by its coordinates, are again indices given
by coordinates (contraction: `(r, j), k ↦ (r, k)` on the left and `(k, j)` on the right; transpose:
`(k, j) ↦ (j, k)`; the two bias broadcasts: `(r, j) ↦ (0, j) ↦ j`). The product inside each contraction is
`h (r, k) * W (j, k)` in this order on both sides, so no commutation is used. For the rescaling, the row sum's
initial value is the zero word, which is the extended real `0`, and `0 + s = s`; the divisor's index map is
`(r, o) ↦ (r, 0) ↦ r`, and the summed entries are `(r, k)`.
-/

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## Layer one -/

/-- The first contraction's left operand: `(r, j), k ↦ (r, k)`. -/
theorem lidx_v1 (r : Fin 500000) (j : Fin 256) (k : Fin 64) : lidx_main_v1 (ix2 r j) k = ix2 r k :=
  funext fun a => Fin.ext (by match a with | ⟨0, _⟩ => rfl | ⟨1, _⟩ => rfl)

/-- The first contraction's right operand through the transpose: `(r, j), k ↦ (k, j) ↦ (j, k)`. -/
theorem ridx_v1 (r : Fin 500000) (j : Fin 256) (k : Fin 64) : idx_main_v0 (ridx_main_v1 (ix2 r j) k) = ix2 j k :=
  funext fun a => Fin.ext (by match a with | ⟨0, _⟩ => rfl | ⟨1, _⟩ => rfl)

/-- The first bias through its two broadcasts: `(r, j) ↦ (0, j) ↦ j`. -/
theorem bidx_v3 (r : Fin 500000) (j : Fin 256) : idx_main_v2 (idx_main_v3 (ix2 r j)) = ix1 j :=
  funext fun a => Fin.ext (by match a with | ⟨0, _⟩ => rfl)

/-- The first clamped layer at `(r, j)`. -/
theorem layer1 (x0 : (⟨S500000x64, .f32⟩ : BufTy).Contents (Elt Ideal)) (x1 : (⟨S256x64, .f32⟩ : BufTy).Contents (Elt Ideal))
    (x2 : (⟨S256, .f32⟩ : BufTy).Contents (Elt Ideal)) (r : Fin 500000) (j : Fin 256) :
    val_main_v5 (F := Ideal) x0 x1 x2 (ix2 r j)
      = Cert.Mlp.layer (fun k => x0 (ix2 r k)) (fun j k => x1 (ix2 j k)) (fun j => x2 (ix1 j)) j := by
  rw [val_main_v5_apply, val_main_v4_apply, val_main_v1_apply, val_main_v3_apply, val_main_v2_apply,
    val_main_call0_v0_apply, val_main_call0_cst_apply, bidx_v3]
  simp only [val_main_v0_apply, lidx_v1, ridx_v1, Ideal.addf_def, Ideal.maximumf_def, Ideal.ofBits_def]
  rfl

/-! ## Layer two -/

/-- The second contraction's left operand: `(r, j), k ↦ (r, k)`. -/
theorem lidx_v7 (r : Fin 500000) (j k : Fin 256) : lidx_main_v7 (ix2 r j) k = ix2 r k :=
  funext fun a => Fin.ext (by match a with | ⟨0, _⟩ => rfl | ⟨1, _⟩ => rfl)

/-- The second contraction's right operand through the transpose: `(r, j), k ↦ (k, j) ↦ (j, k)`. -/
theorem ridx_v7 (r : Fin 500000) (j k : Fin 256) : idx_main_v6 (ridx_main_v7 (ix2 r j) k) = ix2 j k :=
  funext fun a => Fin.ext (by match a with | ⟨0, _⟩ => rfl | ⟨1, _⟩ => rfl)

/-- The second bias through its two broadcasts: `(r, j) ↦ (0, j) ↦ j`. -/
theorem bidx_v9 (r : Fin 500000) (j : Fin 256) : idx_main_v8 (idx_main_v9 (ix2 r j)) = ix1 j :=
  funext fun a => Fin.ext (by match a with | ⟨0, _⟩ => rfl)

/-- The second clamped layer at `(r, j)`, on the first layer's row `r`. -/
theorem layer2 (x0 : (⟨S500000x64, .f32⟩ : BufTy).Contents (Elt Ideal)) (x1 : (⟨S256x64, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (r : Fin 500000) (j : Fin 256) :
    val_main_v11 (F := Ideal) x0 x1 x2 x3 x4 (ix2 r j)
      = Cert.Mlp.layer (Cert.Mlp.layer (fun k => x0 (ix2 r k)) (fun j k => x1 (ix2 j k)) (fun j => x2 (ix1 j)))
        (fun j k => x3 (ix2 j k)) (fun j => x4 (ix1 j)) j := by
  rw [val_main_v11_apply, val_main_v10_apply, val_main_v7_apply, val_main_v9_apply, val_main_v8_apply,
    val_main_call1_v0_apply, val_main_call1_cst_apply, bidx_v9]
  simp only [val_main_v6_apply, lidx_v7, ridx_v7, layer1, Ideal.addf_def, Ideal.maximumf_def, Ideal.ofBits_def]
  rfl

/-! ## Layer three -/

/-- The third contraction's left operand: `(r, o), k ↦ (r, k)`. -/
theorem lidx_v13 (r : Fin 500000) (o : Fin 8) (k : Fin 256) : lidx_main_v13 (ix2 r o) k = ix2 r k :=
  funext fun a => Fin.ext (by match a with | ⟨0, _⟩ => rfl | ⟨1, _⟩ => rfl)

/-- The third contraction's right operand through the transpose: `(r, o), k ↦ (k, o) ↦ (o, k)`. -/
theorem ridx_v13 (r : Fin 500000) (o : Fin 8) (k : Fin 256) : idx_main_v12 (ridx_main_v13 (ix2 r o) k) = ix2 o k :=
  funext fun a => Fin.ext (by match a with | ⟨0, _⟩ => rfl | ⟨1, _⟩ => rfl)

/-- The third bias through its two broadcasts: `(r, o) ↦ (0, o) ↦ o`. -/
theorem bidx_v15 (r : Fin 500000) (o : Fin 8) : idx_main_v14 (idx_main_v15 (ix2 r o)) = ix1 o :=
  funext fun a => Fin.ext (by match a with | ⟨0, _⟩ => rfl)

/-- The third clamped layer at `(r, o)`, on the second layer's row `r`. -/
theorem layer3 (x0 : (⟨S500000x64, .f32⟩ : BufTy).Contents (Elt Ideal)) (x1 : (⟨S256x64, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S8x256, .f32⟩ : BufTy).Contents (Elt Ideal))
    (x6 : (⟨S8, .f32⟩ : BufTy).Contents (Elt Ideal)) (r : Fin 500000) (o : Fin 8) :
    val_main_v17 (F := Ideal) x0 x1 x2 x3 x4 x5 x6 (ix2 r o)
      = Cert.Mlp.layer (Cert.Mlp.layer (Cert.Mlp.layer (fun k => x0 (ix2 r k)) (fun j k => x1 (ix2 j k)) (fun j => x2 (ix1 j)))
        (fun j k => x3 (ix2 j k)) (fun j => x4 (ix1 j)))
        (fun j k => x5 (ix2 j k)) (fun j => x6 (ix1 j)) o := by
  rw [val_main_v17_apply, val_main_v16_apply, val_main_v13_apply, val_main_v15_apply, val_main_v14_apply,
    val_main_call2_v0_apply, val_main_call2_cst_apply, bidx_v15]
  simp only [val_main_v12_apply, lidx_v13, ridx_v13, layer2, Ideal.addf_def, Ideal.maximumf_def, Ideal.ofBits_def]
  rfl

/-! ## The rescaling -/

/-- The row sum's entries, through the divisor's two broadcasts: `(r, o) ↦ (r, 0) ↦ r`, then `r, k ↦ (r, k)`. -/
theorem sidx_v18 (r : Fin 500000) (o k : Fin 8) : idx_main_v18 (idx_main_v19 (idx_main_v22 (ix2 r o))) k = ix2 r k :=
  funext fun a => Fin.ext (by match a with | ⟨0, _⟩ => rfl | ⟨1, _⟩ => rfl)

/-- The reference's result, as a function of its seven arguments at the ideal instance, is the network `G`. -/
theorem result_eq (x0 : (⟨S500000x64, .f32⟩ : BufTy).Contents (Elt Ideal)) (x1 : (⟨S256x64, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S8x256, .f32⟩ : BufTy).Contents (Elt Ideal))
    (x6 : (⟨S8, .f32⟩ : BufTy).Contents (Elt Ideal)) :
    val_main_v23 (F := Ideal) x0 x1 x2 x3 x4 x5 x6 = Cert.Mlp.G x0 x1 x2 x3 x4 x5 x6 := by
  funext i
  obtain ⟨r, o, rfl⟩ : ∃ (r : Fin 500000) (o : Fin 8), i = ix2 r o := ⟨i 0, i 1, eq_ix2 i⟩
  rw [Cert.Mlp.G_ix2, val_main_v23_apply, val_main_v22_apply, val_main_v21_apply, val_main_v20_apply,
    val_main_cst_0_apply, val_main_v19_apply, val_main_v18_apply, val_main_cst_apply, layer3]
  simp only [sidx_v18, layer3, Ideal.mulf_def, Ideal.hostDivf_def, Ideal.ofBits_def, Ideal.ofBits_zero_f32, zero_add]
  rfl

end Cert.ReferenceIdeal.RefValue

end
-- ==== Proof.lean ====
/-
  The kernel is a three-layer network on 500000 rows of 64 features — `relu (x W1ᵀ + b1)`, `relu (· W2ᵀ + b2)`,
  `relu (· W3ᵀ + b3)`, then each row of eight outputs rescaled to sum to one hundred — computed 8192 rows at a time:
  the weights are transposed and narrowed to sixteen bits once on the host, each grid point multiplies its block of
  rows through the three layers on the matrix unit, takes the third product with the weights on the left so that the
  batch lies along the lanes, sums the eight outputs of each row, divides one hundred by the sum, scales, and
  transposes the small tile back to rows-by-outputs. The reference does the same with whole-array operations.

  On the extended reals the two are one function of the seven arguments, `Cert.Mlp.G` (Proof/Spec.lean): a change of
  float format is the identity, a matrix product into a zero accumulator is the finite sum of products, the sum over
  the eight outputs is the same finite sum on both sides (the reference adds it to an initial zero), the quotient is
  the same total quotient of the same constant, and the only rearrangement is the commutation of each product in the
  third layer. No step needs an entry to be finite, so the precondition is not opened.

  The 500000 rows are not a multiple of 8192: the last of the 62 blocks has 288 rows inside the arrays, and the
  staging buffers hold unnamed values on the rows past the end. Every row is computed alone, so those rows never
  reach a row that is written back (Proof/RunKI.lean `cut_out`), and the blocks written back cover the result
  (Proof/Blocks.lean `cover7`). For the word-level program only the frame is claimed, and there the result's
  staging contents are left unnamed (Proof/FrameK.lean).

  - `frame_Kernel`: Proof/FrameK.lean, at the word-level instance.
  - `frame_KernelIdeal`: Proof/RunKI.lean.
  - `frame_ReferenceIdeal`: the reference's run with the result dropped.
  - `preserves_Kernel_KernelIdeal`: no operation was rewritten; the statement is `True`.
  - `algebraic_KernelIdeal_ReferenceIdeal`: the kernel's run ends with the result array at `G` of its arguments
    (Proof/ValueKI.lean), the reference's at `G` of its own (Proof/RefValue.lean), and the arguments agree.
-/
import proofs.«417296_j56934086476542_3_alg».proof.Defs
import proofs.«417296_j56934086476542_3_alg».proof.Proof.Gen.Kernel
import proofs.«417296_j56934086476542_3_alg».proof.Proof.Gen.KernelIdeal
import proofs.«417296_j56934086476542_3_alg».proof.Proof.Gen.ReferenceIdeal
import proofs.«417296_j56934086476542_3_alg».proof.Proof.Gen.Pre_finite_inputs
import proofs.«417296_j56934086476542_3_alg».proof.Proof.FrameK
import proofs.«417296_j56934086476542_3_alg».proof.Proof.ValueKI
import proofs.«417296_j56934086476542_3_alg».proof.Proof.RefValue

noncomputable section

namespace Cert.Proof

open Idealize.ShloMosaic Idealize.SL.Sem

/-- The word-level kernel runs and leaves its arguments alone. -/
theorem frame_k : Cert.frame_Kernel := fun m ρ _ => Cert.Kernel.FrameRun.frame (F := Bits) m ρ

/-- So does the idealized kernel. -/
theorem frame_ki : Cert.frame_KernelIdeal := fun m ρ _ => Cert.KernelIdeal.Run.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the seven arguments both programs end with the result array at the network `G` of
    those arguments. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
